-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x128 .f32) (main_arg4 : FVec F S128 .f32) (main_arg5 : FVec F S128x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 54
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x40, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x40, .f32⟩
  | .hbm, ⟨44, _⟩ => ⟨S1600000x1, .f32⟩
  | .hbm, ⟨45, _⟩ => ⟨S1600000x40, .f32⟩
  | .hbm, ⟨46, _⟩ => ⟨S1600000x40, .f32⟩
  | .hbm, ⟨47, _⟩ => ⟨S_, .f32⟩
  | .hbm, ⟨48, _⟩ => ⟨S100000x40, .f32⟩
  | .hbm, ⟨49, _⟩ => ⟨S1600000x1, .i32⟩
  | .hbm, ⟨50, _⟩ => ⟨S100000x40, .f32⟩
  | .hbm, ⟨51, _⟩ => ⟨S1x40, .f32⟩
  | .hbm, ⟨52, _⟩ => ⟨S100000x40, .f32⟩
  | .hbm, ⟨53, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S5000x40, .f32⟩
  | .local _ .vmem, ⟨9, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 54
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x40, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x40, .f32⟩
  | .hbm, ⟨44, _⟩ => ⟨S1600000x1, .f32⟩
  | .hbm, ⟨45, _⟩ => ⟨S1600000x40, .f32⟩
  | .hbm, ⟨46, _⟩ => ⟨S1600000x40, .f32⟩
  | .hbm, ⟨47, _⟩ => ⟨S_, .f32⟩
  | .hbm, ⟨48, _⟩ => ⟨S100000x40, .f32⟩
  | .hbm, ⟨49, _⟩ => ⟨S1600000x1, .i32⟩
  | .hbm, ⟨50, _⟩ => ⟨S100000x40, .f32⟩
  | .hbm, ⟨51, _⟩ => ⟨S1x40, .f32⟩
  | .hbm, ⟨52, _⟩ => ⟨S100000x40, .f32⟩
  | .hbm, ⟨53, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Dense1.lean ====
/-
  Layer 1's dense product, as the first pipelined region leaves it.

  The region cuts the 100000 rows of the left factor into 20 blocks of 5000 rows; at each grid point it multiplies one
  block by the whole 256 x 128 right factor and writes the 5000 x 128 result back as the same block of rows of the
  output. Over the extended reals the narrowing of the operands to bf16 is the identity and the product into a zero
  accumulator is the plain sum over the contracted axis, so entry (r, q) of the output array is
  sum_k x[r, k] * w[k, q]: the product of the whole arrays, whatever the blocking.

  Everything here is stated at an arbitrary contents `V` of the buffers when the region is entered.
-/
import proofs.«123925_j25056839205778_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.Pipeline (Dat)

/-! ## The product of the whole arrays -/

/-- Where output entry `i = (r, q)` reads the left factor at contraction step `k`: `(r, k)`. -/
abbrev lrow (i : S100000x128.Idx) (k : Fin 256) : S100000x256.Idx := fun a => match a with
  | ⟨0, _⟩ => ⟨(i 0).val, (i 0).isLt⟩
  | ⟨1, _⟩ => ⟨k.val, k.isLt⟩
/-- Where it reads the right factor: `(k, q)`. -/
abbrev rcol (i : S100000x128.Idx) (k : Fin 256) : S256x128.Idx := fun a => match a with
  | ⟨0, _⟩ => ⟨k.val, k.isLt⟩
  | ⟨1, _⟩ => ⟨(i 1).val, (i 1).isLt⟩

/-- `x · w` over the extended reals: entry `(r, q)` is `∑ k, x[r, k] * w[k, q]`. -/
def prod (x : S100000x256.Idx → EReal) (w : S256x128.Idx → EReal) : S100000x128.Idx → EReal :=
  fun i => ∑ k : Fin 256, x (lrow i k) * w (rcol i k)

/-! ## One block's product, entry by entry -/

/-- Inside a block: entry `j = (p, q)` reads the block of rows at `(p, k)` -/
abbrev brow (j : S5000x128.Idx) (k : Fin 256) : S5000x256.Idx := fun a => match a with
  | ⟨0, _⟩ => ⟨(j 0).val, (j 0).isLt⟩
  | ⟨1, _⟩ => ⟨k.val, k.isLt⟩
/-- and the right factor at `(k, q)`. -/
abbrev bcol (j : S5000x128.Idx) (k : Fin 256) : S256x128.Idx := fun a => match a with
  | ⟨0, _⟩ => ⟨k.val, k.isLt⟩
  | ⟨1, _⟩ => ⟨(j 1).val, (j 1).isLt⟩

theorem lhs_axis0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_axis1 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem rhs_axis0 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem rhs_axis1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's one stored value at entry `(p, q)` of the block: the narrowing to bf16 is the identity on the extended
    reals and the accumulator is zero, so it is `∑ k, x0[p, k] * x1[k, q]`. -/
theorem pay_apply (x0 : FVec Ideal S5000x256 .f32) (x1 : FVec Ideal S256x128 .f32) (j : S5000x128.Idx) :
    k0_pay1 (F := Ideal) x0 x1 j = ∑ k : Fin 256, x0 (brow j k) * x1 (bcol j k) := by
  unfold k0_pay1
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = brow j k := funext fun a => Fin.ext (by
    match a with
    | ⟨0, _⟩ => exact lhs_axis0 _ _
    | ⟨1, _⟩ => exact (lhs_axis1 _ _).trans hk)
  have er : dot_S5000x256_S256x128_S5000x128_1_0_0_1_n_n.rhsIdx j ((ValueIdx.contrEquiv1 dot_S5000x256_S256x128_S5000x128_1_0_0_1_n_n 256 rfl rfl).symm k) = bcol j k := funext fun a => Fin.ext (by
    match a with
    | ⟨0, _⟩ => exact (rhs_axis0 _ _).trans hk
    | ⟨1, _⟩ => exact rhs_axis1 _ _)
  rw [el, er]
  rfl

/-! ## From blocks to the array -/

variable (V : (c : Dev nD) → (b : Ref sig .tc) → Buf (Elt Ideal) ((c : Thread nD τ).loc b))

/-- The left factor and the right factor as the region finds them, at their literal types. -/
abbrev xarr (c : Dev nD) : S100000x256.Idx → EReal := V c main_arg0
abbrev warr (c : Dev nD) : S256x128.Idx → EReal := V c main_arg3

theorem hz : (![0, 0] : Fin 2 → Nat) = fun _ => 0 := funext fun a => by fin_cases a <;> rfl

/-- The three index maps over the grid: the rows' window and the output's window are at block `t` of the row axis and
    block 0 of the other; the right factor's window never moves. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every block of 5000 rows is some grid point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What grid point `t` writes back is block `t` of the product of the two whole arrays as the region found them: a
    block's row `p` is row `5000 t + p` of the array, and the right factor's block is the whole of it. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  refine (pay_apply (iblk0 V c 0 t) (iblk0 V c 1 t) j).trans ?_
  show (∑ k : Fin 256, xarr V c (((cfg0.win 0).blk t).view.emb (brow j k)) * warr V c (((cfg0.win 1).blk t).view.emb (bcol j k)))
    = ∑ k : Fin 256, xarr V c (lrow (((cfg0.win 2).blk t).view.emb j) k) * warr V c (rcol (((cfg0.win 2).blk t).view.emb j) k)
  refine Finset.sum_congr rfl fun k _ => ?_
  have h0 : ((cfg0.win 0).blk t).view.emb (brow j k) = lrow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (bcol j k) = rcol (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An entry of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The 20 blocks of rows tile the array: row `r` is in block `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the two whole arrays as the region found them. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Dense1

end
-- ==== Proof.Stages1.lean ====
/-
  The idealized kernel computes the reference's stages, boundary by boundary: up to the first region's exit.

  The kernel's @main is the reference's @main with the two dense products replaced by pipelined regions. The slices of
  the edge list before the first region are the reference's own operations; the first region leaves `x · W1`, the
  product of the whole arrays, which is what the reference's `dot_general` is over the extended reals (both are the
  same sum over the contracted axis); every other buffer keeps what it held.
-/
import proofs.«123925_j25056839205778_1_alg».proof.Proof.Gen.KernelIdeal.Frame
import proofs.«123925_j25056839205778_1_alg».proof.Proof.Gen.ReferenceIdeal.Read
import proofs.«123925_j25056839205778_1_alg».proof.Proof.Dense1

set_option maxRecDepth 16384

noncomputable section

namespace Cert.KernelIdeal.Stages

open Cert.KernelIdeal Cert.KernelIdeal.Gen Idealize.ShloMosaic Idealize.ShloMosaic.TcCoe Idealize.SL.Sem
open Cert.ReferenceIdeal.Read (val_main_v1 val_main_v3 val_main_v4)

variable (m : (ℓ : Loc nD τ sig) → Buf (Elt Ideal) ℓ) (ρ : Dev nD → PrngReg)

/-! ## The launch contents of the seven arguments -/

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)

/-! ## Before the first region: the source and destination rows of the edge list -/

theorem W1_v1 (c : Dev nD) : W1 m ρ c (Proc.devRef .tc main_v1) = val_main_v1 (F := Ideal) (a1 m c) := by
  show StableHlo.after hostOps0 (W0 m ρ c) (Proc.devRef .tc main_v1) = _
  after_results <;> rfl
theorem W1_v3 (c : Dev nD) : W1 m ρ c (Proc.devRef .tc main_v3) = val_main_v3 (F := Ideal) (a1 m c) := by
  show StableHlo.after hostOps0 (W0 m ρ c) (Proc.devRef .tc main_v3) = _
  after_results <;> rfl
theorem W1_arg0 (c : Dev nD) : W1 m ρ c (Proc.devRef .tc main_arg0) = a0 m c := by
  show StableHlo.after hostOps0 (W0 m ρ c) (Proc.devRef .tc main_arg0) = _
  after_results <;> rfl
theorem W1_arg2 (c : Dev nD) : W1 m ρ c (Proc.devRef .tc main_arg2) = a2 m c := by
  show StableHlo.after hostOps0 (W0 m ρ c) (Proc.devRef .tc main_arg2) = _
  after_results <;> rfl
theorem W1_arg3 (c : Dev nD) : W1 m ρ c (Proc.devRef .tc main_arg3) = a3 m c := by
  show StableHlo.after hostOps0 (W0 m ρ c) (Proc.devRef .tc main_arg3) = _
  after_results <;> rfl
theorem W1_arg4 (c : Dev nD) : W1 m ρ c (Proc.devRef .tc main_arg4) = a4 m c := by
  show StableHlo.after hostOps0 (W0 m ρ c) (Proc.devRef .tc main_arg4) = _
  after_results <;> rfl
theorem W1_arg5 (c : Dev nD) : W1 m ρ c (Proc.devRef .tc main_arg5) = a5 m c := by
  show StableHlo.after hostOps0 (W0 m ρ c) (Proc.devRef .tc main_arg5) = _
  after_results <;> rfl
theorem W1_arg6 (c : Dev nD) : W1 m ρ c (Proc.devRef .tc main_arg6) = a6 m c := by
  show StableHlo.after hostOps0 (W0 m ρ c) (Proc.devRef .tc main_arg6) = _
  after_results <;> rfl

/-! ## After the first region: `x · W1`, everything else untouched -/

/-- The product of the whole arrays is the reference's `dot_general`, read as the same sum. -/
theorem prod1_eq (x : S100000x256.Idx → EReal) (w : S256x128.Idx → EReal) :
    Dense1.prod x w = val_main_v4 (F := Ideal) x w := by
  funext i
  rw [Cert.ReferenceIdeal.Read.val_main_v4_apply]
  rfl

theorem W2_v4 (c : Dev nD) : W2 m ρ c (Proc.devRef .tc main_v4) = val_main_v4 (F := Ideal) (a0 m c) (a3 m c) := by
  refine (W2_arr m ρ c 2).trans ((Dense1.final (V1 m ρ) c).trans ?_)
  show Dense1.prod (W1 m ρ c (Proc.devRef .tc main_arg0)) (W1 m ρ c (Proc.devRef .tc main_arg3)) = _
  rw [W1_arg0, W1_arg3]
  exact prod1_eq _ _
theorem W2_v1 (c : Dev nD) : W2 m ρ c (Proc.devRef .tc main_v1) = val_main_v1 (F := Ideal) (a1 m c) :=
  (W2_of_ne m ρ c main_v1 (by decide)).trans (W1_v1 m ρ c)
theorem W2_v3 (c : Dev nD) : W2 m ρ c (Proc.devRef .tc main_v3) = val_main_v3 (F := Ideal) (a1 m c) :=
  (W2_of_ne m ρ c main_v3 (by decide)).trans (W1_v3 m ρ c)
theorem W2_arg2 (c : Dev nD) : W2 m ρ c (Proc.devRef .tc main_arg2) = a2 m c :=
  (W2_of_ne m ρ c main_arg2 (by decide)).trans (W1_arg2 m ρ c)
theorem W2_arg4 (c : Dev nD) : W2 m ρ c (Proc.devRef .tc main_arg4) = a4 m c :=
  (W2_of_ne m ρ c main_arg4 (by decide)).trans (W1_arg4 m ρ c)
theorem W2_arg5 (c : Dev nD) : W2 m ρ c (Proc.devRef .tc main_arg5) = a5 m c :=
  (W2_of_ne m ρ c main_arg5 (by decide)).trans (W1_arg5 m ρ c)
theorem W2_arg6 (c : Dev nD) : W2 m ρ c (Proc.devRef .tc main_arg6) = a6 m c :=
  (W2_of_ne m ρ c main_arg6 (by decide)).trans (W1_arg6 m ρ c)

end Cert.KernelIdeal.Stages

end
-- ==== Proof.Dense2.lean ====
/-
  Layer 2's dense product, as the second pipelined region leaves it.

  The hidden activations, 100000 rows of 128, are cut into 20 blocks of 5000 rows; each grid point multiplies one block by
  the whole 128 x 40 weight and writes the 5000 x 40 result back as the same block of rows of the output. The body first
  casts its block to its own shape, which changes nothing; over the extended reals the narrowing to bf16 is the identity
  and the accumulator is zero, so entry (r, q) of the output array is sum_k h[r, k] * w[k, q].

  Everything here is stated at an arbitrary contents `V` of the buffers when the region is entered.
-/
import proofs.«123925_j25056839205778_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.Pipeline (Dat)

/-! ## The product of the whole arrays -/

/-- Where output entry `i = (r, q)` reads the activations at contraction step `k`: `(r, k)`. -/
abbrev lrow (i : S100000x40.Idx) (k : Fin 128) : S100000x128.Idx := fun a => match a with
  | ⟨0, _⟩ => ⟨(i 0).val, (i 0).isLt⟩
  | ⟨1, _⟩ => ⟨k.val, k.isLt⟩
/-- Where it reads the weight: `(k, q)`. -/
abbrev rcol (i : S100000x40.Idx) (k : Fin 128) : S128x40.Idx := fun a => match a with
  | ⟨0, _⟩ => ⟨k.val, k.isLt⟩
  | ⟨1, _⟩ => ⟨(i 1).val, (i 1).isLt⟩

/-- `h · w` over the extended reals: entry `(r, q)` is `∑ k, h[r, k] * w[k, q]`. -/
def prod (h : S100000x128.Idx → EReal) (w : S128x40.Idx → EReal) : S100000x40.Idx → EReal :=
  fun i => ∑ k : Fin 128, h (lrow i k) * w (rcol i k)

/-! ## One block's product, entry by entry -/

/-- Inside a block: entry `j = (p, q)` reads the block of rows at `(p, k)` -/
abbrev brow (j : S5000x40.Idx) (k : Fin 128) : S5000x128.Idx := fun a => match a with
  | ⟨0, _⟩ => ⟨(j 0).val, (j 0).isLt⟩
  | ⟨1, _⟩ => ⟨k.val, k.isLt⟩
/-- and the weight at `(k, q)`. -/
abbrev bcol (j : S5000x40.Idx) (k : Fin 128) : S128x40.Idx := fun a => match a with
  | ⟨0, _⟩ => ⟨k.val, k.isLt⟩
  | ⟨1, _⟩ => ⟨(j 1).val, (j 1).isLt⟩

theorem lhs_axis0 (j : S5000x40.Idx) (q : dot_S5000x128_S128x40_S5000x40_1_0_0_1_n_n.contr.Idx) :
    (dot_S5000x128_S128x40_S5000x40_1_0_0_1_n_n.lhsIdx j q 0).val = (j 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs_axis1 (j : S5000x40.Idx) (q : dot_S5000x128_S128x40_S5000x40_1_0_0_1_n_n.contr.Idx) :
    (dot_S5000x128_S128x40_S5000x40_1_0_0_1_n_n.lhsIdx j q 1).val = (q ⟨0, by decide⟩).val :=
  dot_S5000x128_S128x40_S5000x40_1_0_0_1_n_n.lhsIdx_val_of_single rfl j q
theorem rhs_axis0 (j : S5000x40.Idx) (q : dot_S5000x128_S128x40_S5000x40_1_0_0_1_n_n.contr.Idx) :
    (dot_S5000x128_S128x40_S5000x40_1_0_0_1_n_n.rhsIdx j q 0).val = (q ⟨0, by decide⟩).val :=
  dot_S5000x128_S128x40_S5000x40_1_0_0_1_n_n.rhsIdx_val_of_single rfl j q
theorem rhs_axis1 (j : S5000x40.Idx) (q : dot_S5000x128_S128x40_S5000x40_1_0_0_1_n_n.contr.Idx) :
    (dot_S5000x128_S128x40_S5000x40_1_0_0_1_n_n.rhsIdx j q 1).val = (j 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The body's one stored value at entry `(p, q)` of the block: the cast of the block to its own shape and the
    narrowing to bf16 are the identity on the extended reals and the accumulator is zero, so it is
    `∑ k, x0[p, k] * x1[k, q]`. -/
theorem pay_apply (x0 : FVec Ideal S5000x128 .f32) (x1 : FVec Ideal S128x40 .f32) (j : S5000x40.Idx) :
    k1_pay1 (F := Ideal) x0 x1 j = ∑ k : Fin 128, x0 (brow j k) * x1 (bcol j k) := by
  unfold k1_pay1
  simp only [matmul, shapeCast_self]
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx j ((ValueIdx.contrEquiv1 dot_S5000x128_S128x40_S5000x40_1_0_0_1_n_n 128 rfl rfl).symm k) = brow j k := funext fun a => Fin.ext (by
    match a with
    | ⟨0, _⟩ => exact lhs_axis0 _ _
    | ⟨1, _⟩ => exact (lhs_axis1 _ _).trans hk)
  have er : dot_S5000x128_S128x40_S5000x40_1_0_0_1_n_n.rhsIdx j ((ValueIdx.contrEquiv1 dot_S5000x128_S128x40_S5000x40_1_0_0_1_n_n 128 rfl rfl).symm k) = bcol j k := funext fun a => Fin.ext (by
    match a with
    | ⟨0, _⟩ => exact (rhs_axis0 _ _).trans hk
    | ⟨1, _⟩ => exact rhs_axis1 _ _)
  rw [el, er]
  rfl

/-! ## From blocks to the array -/

variable (V : (c : Dev nD) → (b : Ref sig .tc) → Buf (Elt Ideal) ((c : Thread nD τ).loc b))

/-- The activations and the weight as the region finds them, at their literal types. -/
abbrev harr (c : Dev nD) : S100000x128.Idx → EReal := V c main_v21
abbrev warr (c : Dev nD) : S128x40.Idx → EReal := V c main_arg5

theorem hz : (![0, 0] : Fin 2 → Nat) = fun _ => 0 := funext fun a => by fin_cases a <;> rfl

/-- The three index maps over the grid: the rows' window and the output's window are at block `t` of the row axis and
    block 0 of the other; the weight's window never moves. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 19
    ∧ win1_2.index t (1 : Fin 2) = 0 :=
  (by decide +kernel : ∀ t : Fin grid1.N, _)

/-- Every block of 5000 rows is some grid point's. -/
theorem idx_onto : ∀ q0 : Fin 20, ∃ t : Fin cfg1.N, win1_2.index t = ![q0.val, 0] :=
  (by decide +kernel : ∀ q0 : Fin 20, ∃ t : Fin grid1.N, win1_2.index t = ![q0.val, 0])

/-- What grid point `t` writes back is block `t` of the product of the two whole arrays as the region found them: a
    block's row `p` is row `5000 t + p` of the array, and the weight's block is the whole of it. -/
theorem flushed_eq (c : Dev nD) (t : Fin cfg1.N) :
    (dat1 V c).flushed 2 t = ((cfg1.win 2).blk t).view.read (Elt Ideal) (prod (V c main_v21) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x40) hz]
  obtain ⟨e0, e1, e2, e3, e4, e5⟩ := idx_facts t
  funext j
  refine (pay_apply (iblk1 V c 0 t) (iblk1 V c 1 t) j).trans ?_
  show (∑ k : Fin 128, harr V c (((cfg1.win 0).blk t).view.emb (brow j k)) * warr V c (((cfg1.win 1).blk t).view.emb (bcol j k)))
    = ∑ k : Fin 128, harr V c (lrow (((cfg1.win 2).blk t).view.emb j) k) * warr V c (rcol (((cfg1.win 2).blk t).view.emb j) k)
  refine Finset.sum_congr rfl fun k _ => ?_
  have h0 : ((cfg1.win 0).blk t).view.emb (brow j k) = lrow (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (bcol j k) = rcol (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 40 + 1 * (j 1).val = win1_2.index t (1 : Fin 2) * 40 + 1 * (j 1).val; omega
  rw [h0, h1]

/-- An entry of the array is in point `t`'s block iff each coordinate is in the block's range on its axis. -/
theorem mem_blk (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v22).slice (win1_2.rect t)).set ↔ _
  rw [View.set_slice_whole, Rect.mem_set_unit]
  exact Iff.rfl

/-- The 20 blocks of rows tile the array: row `r` is in block `r / 5000`. -/
theorem cover (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- The output array after the region: the product of the two whole arrays as the region found them. -/
theorem final (c : Dev nD) : (dat1 V c).arrAt 2 cfg1.N = prod (V c main_v21) (V c main_arg5) :=
  (dat1 V c).arrAt_eq_of_cover 2 (prod (V c main_v21) (V c main_arg5)) (fun t _ => flushed_eq V c t) cover

end Cert.KernelIdeal.Dense2

end
-- ==== Proof.Stages2.lean ====
/-
  The idealized kernel computes the reference's stages, boundary by boundary: from the first region's exit to the
  result.

  After the first region the kernel gathers the rows of `x · W1` by source node, scales them by the edge weight,
  scatter-adds them by destination node, adds the bias and applies the rectifier: the reference's own operations, on
  operands already known equal, so the buffers hold the reference's stages. The second region leaves `h · W2`, again the
  product of the whole arrays, which is the reference's second `dot_general` read as the same sum; and the last
  stretch (gather, scale, scatter-add, bias) is once more the reference's own. The rectifier is an outlined function
  whose three operations move their values along type equalities that are identities; they are read on their own, over
  whatever the buffers held before them.
-/
import proofs.«123925_j25056839205778_1_alg».proof.Proof.Stages1
import proofs.«123925_j25056839205778_1_alg».proof.Proof.Dense2

set_option maxRecDepth 16384

noncomputable section

namespace Cert.KernelIdeal.Stages

open Cert.KernelIdeal Cert.KernelIdeal.Gen Idealize.ShloMosaic Idealize.ShloMosaic.TcCoe Idealize.SL.Sem
open Cert.ReferenceIdeal.Read (val_main_v1 val_main_v3 val_main_v4 val_main_v20 val_main_v21 val_main_v22 val_main_v38)

variable (m : (ℓ : Loc nD τ sig) → Buf (Elt Ideal) ℓ) (ρ : Dev nD → PrngReg)

/-! ## Layer 1's aggregation and bias: the reference's operations on equal operands -/

set_option maxHeartbeats 600000 in
theorem W3_v20 (c : Dev nD) : W3 m ρ c (Proc.devRef .tc main_v20)
    = val_main_v20 (F := Ideal) (a0 m c) (a1 m c) (a2 m c) (a3 m c) (a4 m c) := by
  show StableHlo.after hostOps1 (W2 m ρ c) (Proc.devRef .tc main_v20) = _
  after_results_simp
  rw [W2_v4, W2_v1, W2_v3, W2_arg2, W2_arg4]
  rfl

/-! ## The rectifier -/

/-- The rectifier's three operations read over ANY contents of the buffers before them: the maximum of what
    `main_v20` held with the zero splat. (Stated over a variable, so that the identities the outlined function moves
    its values along fall away before any full-size value is in sight.) -/
theorem relu_read (W : Valuation τ sig (Elt Ideal)) :
    StableHlo.after hostOps1_1 W (Proc.devRef .tc main_v21)
      = maximumf (F := Ideal) (s := S100000x128) (φ := .f32) (W (Proc.devRef .tc main_v20))
          (broadcastInDim S100000x128 ![] bcast_S_S100000x128 (constant (F := Ideal) S_ .f32 0x00000000#32)) := by
  after_results <;> rfl

theorem W4_v21 (c : Dev nD) : W4 m ρ c (Proc.devRef .tc main_v21)
    = val_main_v21 (F := Ideal) (a0 m c) (a1 m c) (a2 m c) (a3 m c) (a4 m c) := by
  refine (relu_read (W3 m ρ c)).trans ?_
  rw [W3_v20]
  rfl

/-! ## What the layer leaves untouched -/

theorem W4_v1 (c : Dev nD) : W4 m ρ c (Proc.devRef .tc main_v1) = val_main_v1 (F := Ideal) (a1 m c) := by
  refine Eq.trans ?_ (W2_v1 m ρ c)
  show StableHlo.after hostOps1_1 (StableHlo.after hostOps1 (W2 m ρ c)) (Proc.devRef .tc main_v1) = _
  after_results <;> rfl
theorem W4_v3 (c : Dev nD) : W4 m ρ c (Proc.devRef .tc main_v3) = val_main_v3 (F := Ideal) (a1 m c) := by
  refine Eq.trans ?_ (W2_v3 m ρ c)
  show StableHlo.after hostOps1_1 (StableHlo.after hostOps1 (W2 m ρ c)) (Proc.devRef .tc main_v3) = _
  after_results <;> rfl
theorem W4_arg2 (c : Dev nD) : W4 m ρ c (Proc.devRef .tc main_arg2) = a2 m c := by
  refine Eq.trans ?_ (W2_arg2 m ρ c)
  show StableHlo.after hostOps1_1 (StableHlo.after hostOps1 (W2 m ρ c)) (Proc.devRef .tc main_arg2) = _
  after_results <;> rfl
theorem W4_arg5 (c : Dev nD) : W4 m ρ c (Proc.devRef .tc main_arg5) = a5 m c := by
  refine Eq.trans ?_ (W2_arg5 m ρ c)
  show StableHlo.after hostOps1_1 (StableHlo.after hostOps1 (W2 m ρ c)) (Proc.devRef .tc main_arg5) = _
  after_results <;> rfl
theorem W4_arg6 (c : Dev nD) : W4 m ρ c (Proc.devRef .tc main_arg6) = a6 m c := by
  refine Eq.trans ?_ (W2_arg6 m ρ c)
  show StableHlo.after hostOps1_1 (StableHlo.after hostOps1 (W2 m ρ c)) (Proc.devRef .tc main_arg6) = _
  after_results <;> rfl

/-! ## After the second region: `h · W2` -/

/-- The product of the whole arrays is the reference's second `dot_general`, read as the same sum. -/
theorem prod2_eq (x0 : S100000x256.Idx → EReal) (x1 : (⟨S2x1600000, .i32⟩ : BufTy).Contents (Elt Ideal)) (x2 : S1600000.Idx → EReal)
    (x3 : S256x128.Idx → EReal) (x4 : S128.Idx → EReal) (x5 : S128x40.Idx → EReal) :
    Dense2.prod (val_main_v21 (F := Ideal) x0 x1 x2 x3 x4) x5 = val_main_v22 (F := Ideal) x0 x1 x2 x3 x4 x5 := by
  funext i
  rw [Cert.ReferenceIdeal.Read.val_main_v22_apply]
  rfl

theorem W5_v22 (c : Dev nD) : W5 m ρ c (Proc.devRef .tc main_v22)
    = val_main_v22 (F := Ideal) (a0 m c) (a1 m c) (a2 m c) (a3 m c) (a4 m c) (a5 m c) := by
  refine (W5_arr m ρ c 2).trans ((Dense2.final (V4 m ρ) c).trans ?_)
  show Dense2.prod (W4 m ρ c (Proc.devRef .tc main_v21)) (W4 m ρ c (Proc.devRef .tc main_arg5)) = _
  rw [W4_v21, W4_arg5]
  exact prod2_eq _ _ _ _ _ _
theorem W5_v1 (c : Dev nD) : W5 m ρ c (Proc.devRef .tc main_v1) = val_main_v1 (F := Ideal) (a1 m c) :=
  (W5_of_ne m ρ c main_v1 (by decide)).trans (W4_v1 m ρ c)
theorem W5_v3 (c : Dev nD) : W5 m ρ c (Proc.devRef .tc main_v3) = val_main_v3 (F := Ideal) (a1 m c) :=
  (W5_of_ne m ρ c main_v3 (by decide)).trans (W4_v3 m ρ c)
theorem W5_arg2 (c : Dev nD) : W5 m ρ c (Proc.devRef .tc main_arg2) = a2 m c :=
  (W5_of_ne m ρ c main_arg2 (by decide)).trans (W4_arg2 m ρ c)
theorem W5_arg6 (c : Dev nD) : W5 m ρ c (Proc.devRef .tc main_arg6) = a6 m c :=
  (W5_of_ne m ρ c main_arg6 (by decide)).trans (W4_arg6 m ρ c)

/-! ## Layer 2's aggregation and bias: the result -/

set_option maxHeartbeats 600000 in
/-- The result buffer's last contents: the reference's last stage of the launch arguments. -/
theorem W6_v38 (c : Dev nD) : W6 m ρ c (Proc.devRef .tc main_v38)
    = val_main_v38 (F := Ideal) (a0 m c) (a1 m c) (a2 m c) (a3 m c) (a4 m c) (a5 m c) (a6 m c) := by
  show StableHlo.after hostOps2 (W5 m ρ c) (Proc.devRef .tc main_v38) = _
  after_results_simp
  rw [W5_v22, W5_v1, W5_v3, W5_arg2, W5_arg6]
  rfl

end Cert.KernelIdeal.Stages

end
-- ==== Proof.lean ====
/-
  A two-layer graph convolution, `out = A · relu(A · (x · W1) + b1) · W2 + b2` with `A` the weighted adjacency given as an
  edge list (gather the source rows, scale by the edge weight, scatter-add into the destination rows): the kernel
  computes the two dense products `x · W1` and `h · W2` in pipelined regions, 20 blocks of 5000 rows each with the
  weight resident, the operands narrowed to bf16 and accumulated in f32; the reference computes them with one
  `dot_general` each. Everything else is the same sequence of host operations in both programs.

  Over the extended reals narrowing is the identity and a product into a zero accumulator is the plain sum over the
  contracted axis, so each region's output array, block by block, is the product of the whole arrays
  (Proof/Dense1.lean, Proof/Dense2.lean), which is what `dot_general` is there. Walking the kernel's @main from boundary
  to boundary, every buffer the result depends on holds the reference's stage of the launch arguments
  (Proof/Stages1.lean, Proof/Stages2.lean). The ideal pass rewrote nothing, so the kernel's idealization is its own text. No input needs to
  be finite for any of this: the two sides are the same sums of the same products.
-/
import proofs.«123925_j25056839205778_1_alg».proof.Defs
import proofs.«123925_j25056839205778_1_alg».proof.Proof.Gen.Kernel
import proofs.«123925_j25056839205778_1_alg».proof.Proof.Gen.Kernel.Skeleton
import proofs.«123925_j25056839205778_1_alg».proof.Proof.Gen.Kernel.Launch
import proofs.«123925_j25056839205778_1_alg».proof.Proof.Gen.Kernel.Points
import proofs.«123925_j25056839205778_1_alg».proof.Proof.Gen.Kernel.Frame
import proofs.«123925_j25056839205778_1_alg».proof.Proof.Gen.KernelIdeal
import proofs.«123925_j25056839205778_1_alg».proof.Proof.Gen.KernelIdeal.Skeleton
import proofs.«123925_j25056839205778_1_alg».proof.Proof.Gen.KernelIdeal.Launch
import proofs.«123925_j25056839205778_1_alg».proof.Proof.Gen.KernelIdeal.Points
import proofs.«123925_j25056839205778_1_alg».proof.Proof.Gen.KernelIdeal.Frame
import proofs.«123925_j25056839205778_1_alg».proof.Proof.Gen.ReferenceIdeal
import proofs.«123925_j25056839205778_1_alg».proof.Proof.Gen.ReferenceIdeal.Run
import proofs.«123925_j25056839205778_1_alg».proof.Proof.Gen.ReferenceIdeal.Read
import proofs.«123925_j25056839205778_1_alg».proof.Proof.Gen.Pre_finite_inputs
import proofs.«123925_j25056839205778_1_alg».proof.Proof.KernelRun
import proofs.«123925_j25056839205778_1_alg».proof.Proof.Stages2
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the seven arguments both programs end with the result at the reference's last stage
    of those arguments: the kernel's by the walk through its boundaries, the reference's by its own run. -/
theorem algebraic : Cert.algebraic_KernelIdeal_ReferenceIdeal := by
  intro m ρ m' ρ' _ hagree
  refine ⟨fun c => Cert.ReferenceIdeal.Read.val_main_v38 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Stages.W6_v38 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
